-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1000 : Shape := ⟨2, ![16384, 1000]⟩
abbrev S1000x128 : Shape := ⟨2, ![1000, 128]⟩
abbrev S1000x1 : Shape := ⟨2, ![1000, 1]⟩
abbrev S1 : Shape := ⟨1, ![1]⟩
abbrev S_ : Shape := ⟨0, ![]⟩

class Facts : Prop where
  bcast_S_S16384x1000 : S_.BroadcastsInDim S16384x1000 (![] : Fin 0 → Fin S16384x1000.rank)
  reducesTo_S16384x1000_S_d0_1 : S16384x1000.ReducesTo [0, 1] S_
  h_S_ : 0 < S_.numel
  bcast_S_S1000x128 : S_.BroadcastsInDim S1000x128 (![] : Fin 0 → Fin S1000x128.rank)
  reducesTo_S1000x128_S_d0_1 : S1000x128.ReducesTo [0, 1] S_
  bcast_S_S1000x1 : S_.BroadcastsInDim S1000x1 (![] : Fin 0 → Fin S1000x1.rank)
  reducesTo_S1000x1_S_d0_1 : S1000x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1000x1 .f32) (main_arg5 : FVec F S1000x1 .f32) (main_arg6 : FVec F S1 .f32) (main_v13 : IVec S_ 1) (main_v16 : IVec S1000x128 1) : IVec S_ 1 :=
  let main_c_5 : IVec S_ 1 := constantI S_ 1 1#1
  let main_v17 : IVec S_ 1 := (fun x v => Host.reduce IntOp.andi x v reducesTo_S1000x128_S_d0_1 h_S_) main_v16 main_c_5
  let main_v18 : IVec S_ 1 := andi main_v13 main_v17
  let main_v19 : FVec F S1000x1 .f32 := Host.absf main_arg4
  let main_cst_6 : FVec F S_ .f32 := constant S_ .f32 0x7F800000#32
  let main_v20 : FVec F S1000x1 .f32 := broadcastInDim S1000x1 ![] bcast_S_S1000x1 main_cst_6
  let main_v21 : IVec S1000x1 1 := cmpf .olt main_v19 main_v20
  let main_c_7 : IVec S_ 1 := constantI S_ 1 1#1
  let main_v22 : IVec S_ 1 := (fun x v => Host.reduce IntOp.andi x v reducesTo_S1000x1_S_d0_1 h_S_) main_v21 main_c_7
  let main_v23 : IVec S_ 1 := andi main_v18 main_v22
  let main_v24 : FVec F S1000x1 .f32 := Host.absf main_arg5
  let main_cst_8 : FVec F S_ .f32 := constant S_ .f32 0x7F800000#32
  let main_v25 : FVec F S1000x1 .f32 := broadcastInDim S1000x1 ![] bcast_S_S1000x1 main_cst_8
  let main_v26 : IVec S1000x1 1 := cmpf .olt main_v24 main_v25
  let main_c_9 : IVec S_ 1 := constantI S_ 1 1#1
  let main_v27 : IVec S_ 1 := (fun x v => Host.reduce IntOp.andi x v reducesTo_S1000x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S16384x1000 .f32) (main_arg1 : FVec F S16384x1000 .f32) (main_arg2 : FVec F S1000x128 .f32) (main_arg3 : FVec F S1000x128 .f32) (main_arg4 : FVec F S1000x1 .f32) (main_arg5 : FVec F S1000x1 .f32) (main_arg6 : FVec F S1 .f32) : IVec S_ 1 :=
  let main_v0 : FVec F S16384x1000 .f32 := Host.absf main_arg0
  let main_cst : FVec F S_ .f32 := constant S_ .f32 0x7F800000#32
  let main_v1 : FVec F S16384x1000 .f32 := broadcastInDim S16384x1000 ![] bcast_S_S16384x1000 main_cst
  let main_v2 : IVec S16384x1000 1 := cmpf .olt main_v0 main_v1
  let main_c : IVec S_ 1 := constantI S_ 1 1#1
  let main_v3 : IVec S_ 1 := (fun x v => Host.reduce IntOp.andi x v reducesTo_S16384x1000_S_d0_1 h_S_) main_v2 main_c
  let main_v4 : FVec F S16384x1000 .f32 := Host.absf main_arg1
  let main_cst_0 : FVec F S_ .f32 := constant S_ .f32 0x7F800000#32
  let main_v5 : FVec F S16384x1000 .f32 := broadcastInDim S16384x1000 ![] bcast_S_S16384x1000 main_cst_0
  let main_v6 : IVec S16384x1000 1 := cmpf .olt main_v4 main_v5
  let main_c_1 : IVec S_ 1 := constantI S_ 1 1#1
  let main_v7 : IVec S_ 1 := (fun x v => Host.reduce IntOp.andi x v reducesTo_S16384x1000_S_d0_1 h_S_) main_v6 main_c_1
  let main_v8 : IVec S_ 1 := andi main_v3 main_v7
  let main_v9 : FVec F S1000x128 .f32 := Host.absf main_arg2
  let main_cst_2 : FVec F S_ .f32 := constant S_ .f32 0x7F800000#32
  let main_v10 : FVec F S1000x128 .f32 := broadcastInDim S1000x128 ![] bcast_S_S1000x128 main_cst_2
  let main_v11 : IVec S1000x128 1 := cmpf .olt main_v9 main_v10
  let main_c_3 : IVec S_ 1 := constantI S_ 1 1#1
  let main_v12 : IVec S_ 1 := (fun x v => Host.reduce IntOp.andi x v reducesTo_S1000x128_S_d0_1 h_S_) main_v11 main_c_3
  let main_v13 : IVec S_ 1 := andi main_v8 main_v12
  let main_v14 : FVec F S1000x128 .f32 := Host.absf main_arg3
  let main_cst_4 : FVec F S_ .f32 := constant S_ .f32 0x7F800000#32
  let main_v15 : FVec F S1000x128 .f32 := broadcastInDim S1000x128 ![] bcast_S_S1000x128 main_cst_4
  let main_v16 : IVec S1000x128 1 := cmpf .olt main_v14 main_v15
  fn_part1 (F := F) main_arg4 main_arg5 main_arg6 main_v13 main_v16
-- ==== Kernel.lean ====
abbrev S16384x1000 : Shape := ⟨2, ![16384, 1000]⟩
abbrev S1000x128 : Shape := ⟨2, ![1000, 128]⟩
abbrev S1000x1 : Shape := ⟨2, ![1000, 1]⟩
abbrev S1 : Shape := ⟨1, ![1]⟩
abbrev S1000x16384 : Shape := ⟨2, ![1000, 16384]⟩
abbrev S1000x129 : Shape := ⟨2, ![1000, 129]⟩
abbrev S129x1000 : Shape := ⟨2, ![129, 1000]⟩
abbrev S1x1 : Shape := ⟨2, ![1, 1]⟩
abbrev S16x1x1024 : Shape := ⟨3, ![16, 1, 1024]⟩
abbrev S1000x1024 : Shape := ⟨2, ![1000, 1024]⟩
abbrev S1x1x1024 : Shape := ⟨3, ![1, 1, 1024]⟩
abbrev S129x1024 : Shape := ⟨2, ![129, 1024]⟩
abbrev S128x1024 : Shape := ⟨2, ![128, 1024]⟩
abbrev S1024 : Shape := ⟨1, ![1024]⟩
abbrev S1x1024 : Shape := ⟨2, ![1, 1024]⟩
abbrev S16384 : Shape := ⟨1, ![16384]⟩

abbrev nBuf : Space → Nat
  | .hbm => 18
  | .vmem => 9
  | .smem => 0
  | _ => 0

abbrev bufTy : (tb : Table) → Fin (tcTables nBuf tb) → BufTy
  | .hbm, ⟨0, _⟩ => ⟨S16384x1000, .f32⟩
  | .hbm, ⟨1, _⟩ => ⟨S16384x1000, .f32⟩
  | .hbm, ⟨2, _⟩ => ⟨S1000x128, .f32⟩
  | .hbm, ⟨3, _⟩ => ⟨S1000x128, .f32⟩
  | .hbm, ⟨4, _⟩ => ⟨S1000x1, .f32⟩
  | .hbm, ⟨5, _⟩ => ⟨S1000x1, .f32⟩
  | .hbm, ⟨6, _⟩ => ⟨S1, .f32⟩
  | .hbm, ⟨7, _⟩ => ⟨S1000x16384, .f32⟩
  | .hbm, ⟨8, _⟩ => ⟨S1000x16384, .f32⟩
  | .hbm, ⟨9, _⟩ => ⟨S1000x129, .f32⟩
  | .hbm, ⟨10, _⟩ => ⟨S129x1000, .f32⟩
  | .hbm, ⟨11, _⟩ => ⟨S129x1000, .bf16⟩
  | .hbm, ⟨12, _⟩ => ⟨S1000x129, .f32⟩
  | .hbm, ⟨13, _⟩ => ⟨S129x1000, .f32⟩
  | .hbm, ⟨14, _⟩ => ⟨S129x1000, .bf16⟩
  | .hbm, ⟨15, _⟩ => ⟨S1x1, .f32⟩
  | .hbm, ⟨16, _⟩ => ⟨S16x1x1024, .f32⟩
  | .hbm, ⟨17, _⟩ => ⟨S16384, .f32⟩
  | .local _ .vmem, ⟨0, _⟩ => ⟨S1000x1024, .f32⟩
  | .local _ .vmem, ⟨1, _⟩ => ⟨S1000x1024, .f32⟩
  | .local _ .vmem, ⟨2, _⟩ => ⟨S1000x1024, .f32⟩
  | .local _ .vmem, ⟨3, _⟩ => ⟨S1000x1024, .f32⟩
  | .local _ .vmem, ⟨4, _⟩ => ⟨S129x1000, .bf16⟩
  | .local _ .vmem, ⟨5, _⟩ => ⟨S129x1000, .bf16⟩
  | .local _ .vmem, ⟨6, _⟩ => ⟨S1x1, .f32⟩
  | .local _ .vmem, ⟨7, _⟩ => ⟨S1x1x1024, .f32⟩
  | .local _ .vmem, ⟨8, _⟩ => ⟨S1x1x1024, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S129x1000 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S129x1000 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S16384x1000_S1000x16384_1_0 : S16384x1000.Transposes [1, 0] S1000x16384
  concatenates_S1000x128_S1000x1_S1000x129_d1 : Shape.Concatenates [S1000x128, S1000x1] S1000x129 1
  transposes_S1000x129_S129x1000_1_0 : S1000x129.Transposes [1, 0] S129x1000
  bitsLt_bf16_f32 : FTy.bits .bf16 < FTy.bits .f32
  shapeCasts_S1_S1x1 : S1.ShapeCasts S1x1
  inb_S1000x1024_S1000x1024_0_0 : ∀ a, (![0, 0] : Fin 2 → Nat) a + S1000x1024.size a ≤ S1000x1024.size a
  h_S1000x1024 : 0 < S1000x1024.numel
  shapeCasts_S1000x1024_S1000x1024 : S1000x1024.ShapeCasts S1000x1024
  inb_S129x1000_S129x1000_0_0 : ∀ a, (![0, 0] : Fin 2 → Nat) a + S129x1000.size a ≤ S129x1000.size a
  h_S129x1000 : 0 < S129x1000.numel
  shapeCasts_S129x1000_S129x1000 : S129x1000.ShapeCasts S129x1000
  slices_S129x1024_o0_0_S128x1024 : S129x1024.Slices ![0, 0] S128x1024
  reduces_S128x1024_S1024 : S128x1024.Reduces [0] S1024
  shapeCasts_S1024_S1x1024 : S1024.ShapeCasts S1x1024
  slices_S129x1024_o128_0_S1x1024 : S129x1024.Slices ![128, 0] S1x1024
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S1x1024_S1x1x1024 : S1x1024.ShapeCasts S1x1x1024
  inb_S1x1x1024_S1x1x1024_0_0_0 : ∀ a, (![0, 0, 0] : Fin 3 → Nat) a + S1x1x1024.size a ≤ S1x1x1024.size a
  h_S1x1x1024 : 0 < S1x1x1024.numel
  shapeCasts_S16x1x1024_S16384 : S16x1x1024.ShapeCasts S16384
  dot_S129x1000_S1000x1024_S129x1024_1_0_0_1_n_n_wf : DotDims.WF S129x1000 S1000x1024 S129x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1024.size a ≤ S1000x16384.size a
  hwx0_0 : ∀ i : grid0.Coords, EltTy.bits .f32 = 32 ∨ (Rect.block (s := S1000x16384) S1000x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1024.size a ≤ S1000x16384.size a
  hwx0_1 : ∀ i : grid0.Coords, EltTy.bits .f32 = 32 ∨ (Rect.block (s := S1000x16384) S1000x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S129x1000.size a ≤ S129x1000.size a
  hwx0_2 : ∀ i : grid0.Coords, EltTy.bits .bf16 = 32 ∨ (Rect.block (s := S129x1000) S129x1000.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S129x1000.size a ≤ S129x1000.size a
  hwx0_3 : ∀ i : grid0.Coords, EltTy.bits .bf16 = 32 ∨ (Rect.block (s := S129x1000) S129x1000.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024.size a ≤ S16x1x1024.size a
  hwx0_5 : ∀ i : grid0.Coords, EltTy.bits .f32 = 32 ∨ (Rect.block (s := S16x1x1024) S1x1x1024.size (cc0_transform_5 i) (hinb0_5 i)).WholeWords (EltTy.packing .f32)

variable [Facts₀]

def dot_S129x1000_S1000x1024_S129x1024_1_0_0_1_n_n : DotDims S129x1000 S1000x1024 S129x1024 where
  lhsContracting := [1]
  rhsContracting := [0]
  lhsNonContracting := [0]
  rhsNonContracting := [1]
  lhsBatch := []
  rhsBatch := []
  wf := dot_S129x1000_S1000x1024_S129x1024_1_0_0_1_n_n_wf

abbrev win0_0 : Pipeline.Window sig grid0 :=
  Pipeline.Window.ofSpec (Memref.whole main_v0) S1000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1000x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S129x1000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S129x1000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x1x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x1000 : Shape := ⟨2, ![16384, 1000]⟩
abbrev S1000x128 : Shape := ⟨2, ![1000, 128]⟩
abbrev S1000x1 : Shape := ⟨2, ![1000, 1]⟩
abbrev S1 : Shape := ⟨1, ![1]⟩
abbrev S16384x128 : Shape := ⟨2, ![16384, 128]⟩
abbrev S_ : Shape := ⟨0, ![]⟩
abbrev S16384 : Shape := ⟨1, ![16384]⟩
abbrev S16384x1 : Shape := ⟨2, ![16384, 1]⟩

abbrev nBuf : Space → Nat
  | .hbm => 20
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S16384x1000, .f32⟩
  | .hbm, ⟨2, _⟩ => ⟨S1000x128, .f32⟩
  | .hbm, ⟨3, _⟩ => ⟨S1000x128, .f32⟩
  | .hbm, ⟨4, _⟩ => ⟨S1000x1, .f32⟩
  | .hbm, ⟨5, _⟩ => ⟨S1000x1, .f32⟩
  | .hbm, ⟨6, _⟩ => ⟨S1, .f32⟩
  | .hbm, ⟨7, _⟩ => ⟨S16384x128, .f32⟩
  | .hbm, ⟨8, _⟩ => ⟨S16384x128, .f32⟩
  | .hbm, ⟨9, _⟩ => ⟨S16384x128, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S16384, .f32⟩
  | .hbm, ⟨14, _⟩ => ⟨S16384, .f32⟩
  | .hbm, ⟨15, _⟩ => ⟨S16384x1, .f32⟩
  | .hbm, ⟨16, _⟩ => ⟨S16384, .f32⟩
  | .hbm, ⟨17, _⟩ => ⟨S16384, .f32⟩
  | .hbm, ⟨18, _⟩ => ⟨S16384, .f32⟩
  | .hbm, ⟨19, _⟩ => ⟨S16384, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩

abbrev nD : Nat := 1
abbrev τ : Topo := Topo.v7x

variable {F : FTy → Type} [FloatOps F]

class Facts₀ : Prop where
  reducesTo_S16384x128_S16384_d1 : S16384x128.ReducesTo [1] S16384
  h_S_ : 0 < S_.numel
  shapeCasts_S16384x1_S16384 : S16384x1.ShapeCasts S16384
  bcast_S1_S16384_0 : S1.BroadcastsInDim S16384 (![0] : Fin 1 → Fin S16384.rank)
  dot_S16384x1000_S1000x128_S16384x128_1_0_0_1_n_n_wf : DotDims.WF S16384x1000 S1000x128 S16384x128 [1] [0] [0] [1] [] []
  dot_S16384x1000_S1000x1_S16384x1_1_0_0_1_n_n_wf : DotDims.WF S16384x1000 S1000x1 S16384x1 [1] [0] [0] [1] [] []

variable [Facts₀]

def dot_S16384x1000_S1000x128_S16384x128_1_0_0_1_n_n : DotDims S16384x1000 S1000x128 S16384x128 where
  lhsContracting := [1]
  rhsContracting := [0]
  lhsNonContracting := [0]
  rhsNonContracting := [1]
  lhsBatch := []
  rhsBatch := []
  wf := dot_S16384x1000_S1000x128_S16384x128_1_0_0_1_n_n_wf
def dot_S16384x1000_S1000x1_S16384x1_1_0_0_1_n_n : DotDims S16384x1000 S1000x1 S16384x1 where
  lhsContracting := [1]
  rhsContracting := [0]
  lhsNonContracting := [0]
  rhsNonContracting := [1]
  lhsBatch := []
  rhsBatch := []
  wf := dot_S16384x1000_S1000x1_S16384x1_1_0_0_1_n_n_wf

class Facts : Prop extends Facts₀ where

variable [Facts]
-- ==== Proof.Spec.lean ====
/-
  The value both programs compute, as one function of the seven argument arrays.

  For a batch row `n` the two feature rows are projected onto 128 latent coordinates,
      latent x w n j = Σ_f x[n,f] · w[f,j]          (f over the 1000 features),
  the two projections are multiplied coordinate by coordinate and summed over the 128 coordinates, and the two
  per-feature bias vectors contribute a further inner product each:
      score n = Σ_j latent uf uw n j · latent itf iw n j  +  Σ_f itf[n,f]·ib[f]  +  Σ_f uf[n,f]·ub[f]  +  gb.
  Everything is read on the extended reals.  `score` is written in the order the plain formula lists its terms
  (feature on the left of each product, the item bias added before the user bias).  `scoreT` is the same number with
  each product's factors exchanged and the two bias terms added in the other order — the arrangement a computation over
  the TRANSPOSED tables meets — and `scoreT_eq` says the two agree.  Only commutativity of the product and
  commutativity and associativity of the sum are used, which hold on all of the extended reals, so no entry needs to
  be finite.
-/
import Idealize.ShloMosaic.PureOps.Ideal
import Idealize.ShloMosaic.Lib.ValueIdx

noncomputable section

namespace Cert.HybridScore

open Idealize.ShloMosaic Idealize.ShloMosaic.ValueIdx

/-- A feature matrix: 16384 batch rows of 1000 features. -/
abbrev FeatArr := (⟨2, ![16384, 1000]⟩ : Shape).Idx → EReal
/-- A latent weight table: 1000 features by 128 latent coordinates. -/
abbrev LatArr := (⟨2, ![1000, 128]⟩ : Shape).Idx → EReal
/-- A per-feature bias vector, kept as a column. -/
abbrev BiasArr := (⟨2, ![1000, 1]⟩ : Shape).Idx → EReal
/-- The global bias, one number. -/
abbrev GlobArr := (⟨1, ![1]⟩ : Shape).Idx → EReal

/-- Row `n` of `x` projected on latent coordinate `j` of `w`. -/
def latent (x : FeatArr) (w : LatArr) (n : Fin 16384) (j : Fin 128) : EReal :=
  ∑ f : Fin 1000, x (ix2 n f) * w (ix2 f j)

/-- Row `n` of `x` against the bias column `b`. -/
def biasTerm (x : FeatArr) (b : BiasArr) (n : Fin 16384) : EReal :=
  ∑ f : Fin 1000, x (ix2 n f) * b (ix2 f 0)

/-- The score of batch row `n`. -/
def score (uf itf : FeatArr) (uw iw : LatArr) (ib ub : BiasArr) (gb : GlobArr) (n : Fin 16384) : EReal :=
  (((∑ j : Fin 128, latent uf uw n j * latent itf iw n j) + biasTerm itf ib n) + biasTerm uf ub n) + gb (ix1 0)

/-- The same score with the table entry on the left of every product and the user bias added first. -/
def scoreT (uf itf : FeatArr) (uw iw : LatArr) (ib ub : BiasArr) (gb : GlobArr) (n : Fin 16384) : EReal :=
  (((∑ j : Fin 128, (∑ f : Fin 1000, uw (ix2 f j) * uf (ix2 n f)) * (∑ f : Fin 1000, iw (ix2 f j) * itf (ix2 n f)))
      + ∑ f : Fin 1000, ub (ix2 f 0) * uf (ix2 n f))
    + ∑ f : Fin 1000, ib (ix2 f 0) * itf (ix2 n f)) + gb (ix1 0)

/-- Exchanging the factors of each product and the order of the two bias terms does not change the score. -/
theorem scoreT_eq (uf itf : FeatArr) (uw iw : LatArr) (ib ub : BiasArr) (gb : GlobArr) (n : Fin 16384) :
    scoreT uf itf uw iw ib ub gb n = score uf itf uw iw ib ub gb n := by
  unfold scoreT score latent biasTerm
  have hw : ∀ (x : FeatArr) (w : LatArr) (j : Fin 128),
      (∑ f : Fin 1000, w (ix2 f j) * x (ix2 n f)) = ∑ f : Fin 1000, x (ix2 n f) * w (ix2 f j) :=
    fun x w j => Finset.sum_congr rfl fun f _ => mul_comm _ _
  have hb : ∀ (x : FeatArr) (b : BiasArr),
      (∑ f : Fin 1000, b (ix2 f 0) * x (ix2 n f)) = ∑ f : Fin 1000, x (ix2 n f) * b (ix2 f 0) :=
    fun x b => Finset.sum_congr rfl fun f _ => mul_comm _ _
  simp only [hw, hb]
  rw [add_right_comm (∑ j : Fin 128, _)]

end Cert.HybridScore

end
-- ==== Proof.RefValue.lean ====
/-
  The reference program's result is the score.

  The reference computes, for batch row `n`: the two latent projections as matrix products, their coordinatewise
  product summed over the 128 latent coordinates (a host sum started at zero), then adds the item-bias product, the
  user-bias product and the global bias, in that order.  Read one operation at a time at an index, every stage is the
  corresponding piece of `Cert.HybridScore.score`: each matrix product is the sum over the 1000 features of
  (feature · table entry), the reshapes of the two [16384, 1] bias products drop a unit axis, and the broadcast of the
  global bias reads its one entry.  The only arithmetic step is `0 + s = s` for the host sum's initial value.
-/
import proofs.«160585_g79645873537454_cont_9to1_m_87_24_alg».proof.Proof.Gen.ReferenceIdeal.Read
import proofs.«160585_g79645873537454_cont_9to1_m_87_24_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.HybridScore

/-! ## Where each stage reads its operands -/

/-- The user projection at (row of `i`, latent `k`) reads feature `f` of that row … -/
theorem lidx_v0 (i : S16384.Idx) (k : Fin 128) (f : Fin 1000) :
    lidx_main_v0 (idx_main_v3 i k) f = ix2 (n0 := 16384) (i 0) f :=
  funext fun a => Fin.ext (by match a with | ⟨0, _⟩ => rfl | ⟨1, _⟩ => rfl)
/-- … against entry (`f`, `k`) of the table. -/
theorem ridx_v0 (i : S16384.Idx) (k : Fin 128) (f : Fin 1000) :
    ridx_main_v0 (idx_main_v3 i k) f = ix2 f k :=
  funext fun a => Fin.ext (by match a with | ⟨0, _⟩ => rfl | ⟨1, _⟩ => rfl)
/-- The item projection likewise. -/
theorem lidx_v1 (i : S16384.Idx) (k : Fin 128) (f : Fin 1000) :
    lidx_main_v1 (idx_main_v3 i k) f = ix2 (n0 := 16384) (i 0) f :=
  funext fun a => Fin.ext (by match a with | ⟨0, _⟩ => rfl | ⟨1, _⟩ => rfl)
theorem ridx_v1 (i : S16384.Idx) (k : Fin 128) (f : Fin 1000) :
    ridx_main_v1 (idx_main_v3 i k) f = ix2 f k :=
  funext fun a => Fin.ext (by match a with | ⟨0, _⟩ => rfl | ⟨1, _⟩ => rfl)
/-- The item-bias product, read through the reshape that drops its unit axis, reads feature `f` of the row … -/
theorem lidx_v4 (i : S16384.Idx) (f : Fin 1000) :
    lidx_main_v4 (idx_main_v5 i) f = ix2 (n0 := 16384) (i 0) f :=
  funext fun a => Fin.ext (by
    match a with
    | ⟨0, _⟩ => show (i 0).val / 1 = (i 0).val; exact Nat.div_one _
    | ⟨1, _⟩ => rfl)
/-- … against entry `f` of the bias column. -/
theorem ridx_v4 (i : S16384.Idx) (f : Fin 1000) :
    ridx_main_v4 (idx_main_v5 i) f = ix2 f (0 : Fin 1) :=
  funext fun a => Fin.ext (by match a with | ⟨0, _⟩ => rfl | ⟨1, _⟩ => rfl)
/-- The user-bias product likewise. -/
theorem lidx_v7 (i : S16384.Idx) (f : Fin 1000) :
    lidx_main_v7 (idx_main_v8 i) f = ix2 (n0 := 16384) (i 0) f :=
  funext fun a => Fin.ext (by
    match a with
    | ⟨0, _⟩ => show (i 0).val / 1 = (i 0).val; exact Nat.div_one _
    | ⟨1, _⟩ => rfl)
theorem ridx_v7 (i : S16384.Idx) (f : Fin 1000) :
    ridx_main_v7 (idx_main_v8 i) f = ix2 f (0 : Fin 1) :=
  funext fun a => Fin.ext (by match a with | ⟨0, _⟩ => rfl | ⟨1, _⟩ => rfl)
/-- The broadcast global bias reads its one entry. -/
theorem idx_v10 (i : S16384.Idx) : idx_main_v10 i = ix1 (0 : Fin 1) :=
  funext fun a => Fin.ext (by match a with | ⟨0, _⟩ => rfl)

/-! ## The last stage at an index -/

/-- The reference's result at batch row `i` is the score of that row. -/
theorem val_apply (x0 x1 : (⟨S16384x1000, .f32⟩ : BufTy).Contents (Elt Ideal)) (x2 x3 : (⟨S1000x128, .f32⟩ : BufTy).Contents (Elt Ideal))
    (x4 x5 : (⟨S1000x1, .f32⟩ : BufTy).Contents (Elt Ideal)) (x6 : (⟨S1, .f32⟩ : BufTy).Contents (Elt Ideal)) (i : S16384.Idx) :
    val_main_v11 (F := Ideal) x0 x1 x2 x3 x4 x5 x6 i = score x0 x1 x2 x3 x4 x5 x6 (i 0) := by
  rw [val_main_v11_apply, val_main_v9_apply, val_main_v6_apply, val_main_v3_apply, val_main_v5_apply, val_main_v4_apply,
    val_main_v8_apply, val_main_v7_apply, val_main_v10_apply, val_main_cst_apply]
  simp only [val_main_v2_apply, val_main_v0_apply, val_main_v1_apply, lidx_v0, ridx_v0, lidx_v1, ridx_v1, lidx_v4, ridx_v4,
    lidx_v7, ridx_v7, idx_v10, Ideal.addf_def, Ideal.mulf_def, Ideal.ofBits_def, Ideal.ofBits_zero_f32, zero_add]
  rfl

/-- The reference's result array is the score, row by row. -/
theorem val_eq (x0 x1 : (⟨S16384x1000, .f32⟩ : BufTy).Contents (Elt Ideal)) (x2 x3 : (⟨S1000x128, .f32⟩ : BufTy).Contents (Elt Ideal))
    (x4 x5 : (⟨S1000x1, .f32⟩ : BufTy).Contents (Elt Ideal)) (x6 : (⟨S1, .f32⟩ : BufTy).Contents (Elt Ideal)) :
    val_main_v11 (F := Ideal) x0 x1 x2 x3 x4 x5 x6 = fun i => score x0 x1 x2 x3 x4 x5 x6 (i 0) :=
  funext fun i => val_apply x0 x1 x2 x3 x4 x5 x6 i

end Cert.ReferenceIdeal.RefValue

end
-- ==== Proof.LaneValue.lean ====
/-
  What one grid point's body computes, read at one lane.

  At a grid point the body holds a [1000, 1024] block of each TRANSPOSED feature matrix (features down, 1024 batch rows
  across) and the two whole [129, 1000] tables (row `j < 128` the `j`-th latent column of a weight table, row 128 its
  bias vector).  It forms the two [129, 1024] products table · block, multiplies their first 128 rows entry by entry and
  sums each lane over those 128 rows, then adds row 128 of the first product, row 128 of the second, and the global bias.
  At lane `q` that is
      Σ_{j<128} (Σ_f A[j,f]·X[f,q]) · (Σ_f B[j,f]·Y[f,q])  +  Σ_f A[128,f]·X[f,q]  +  Σ_f B[128,f]·Y[f,q]  +  g,
  on the extended reals, where the narrowing of the blocks to the 16-bit format is the identity and a product into the zero
  accumulator is the plain sum over the contracted coordinate.
-/
import proofs.«160585_g79645873537454_cont_9to1_m_87_24_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.LaneValue

open Cert.KernelIdeal Cert.KernelIdeal.Gen Idealize.ShloMosaic Idealize.ShloMosaic.ValueIdx

/-- Row `j` of the first 128 rows of a 129-row table. -/
abbrev latRow (j : Fin 128) : Fin 129 := ⟨j.val, by omega⟩
/-- The last row of a 129-row table: where the bias vector rides. -/
abbrev biasRow : Fin 129 := ⟨128, by decide⟩

/-! ## The product table · block at an entry -/

theorem lhs_axis0 (i : S129x1024.Idx) (k : dot_S129x1000_S1000x1024_S129x1024_1_0_0_1_n_n.contr.Idx) :
    (dot_S129x1000_S1000x1024_S129x1024_1_0_0_1_n_n.lhsIdx i k 0).val = (i 0).val := by
  unfold DotDims.lhsIdx
  rw [dif_neg (show ¬(0 : Fin S129x1000.rank) ∈ dot_S129x1000_S1000x1024_S129x1024_1_0_0_1_n_n.lhsBatch by decide), dif_pos (show (0 : Fin S129x1000.rank) ∈ dot_S129x1000_S1000x1024_S129x1024_1_0_0_1_n_n.lhsNonContracting by decide)]
  rfl
theorem lhs_axis1 (i : S129x1024.Idx) (k : dot_S129x1000_S1000x1024_S129x1024_1_0_0_1_n_n.contr.Idx) :
    (dot_S129x1000_S1000x1024_S129x1024_1_0_0_1_n_n.lhsIdx i k 1).val = (k ⟨0, by decide⟩).val :=
  dot_S129x1000_S1000x1024_S129x1024_1_0_0_1_n_n.lhsIdx_val_of_single rfl i k
theorem rhs_axis0 (i : S129x1024.Idx) (k : dot_S129x1000_S1000x1024_S129x1024_1_0_0_1_n_n.contr.Idx) :
    (dot_S129x1000_S1000x1024_S129x1024_1_0_0_1_n_n.rhsIdx i k 0).val = (k ⟨0, by decide⟩).val :=
  dot_S129x1000_S1000x1024_S129x1024_1_0_0_1_n_n.rhsIdx_val_of_single rfl i k
theorem rhs_axis1 (i : S129x1024.Idx) (k : dot_S129x1000_S1000x1024_S129x1024_1_0_0_1_n_n.contr.Idx) :
    (dot_S129x1000_S1000x1024_S129x1024_1_0_0_1_n_n.rhsIdx i k 1).val = (i 1).val := by
  unfold DotDims.rhsIdx
  rw [dif_neg (show ¬(1 : Fin S1000x1024.rank) ∈ dot_S129x1000_S1000x1024_S129x1024_1_0_0_1_n_n.rhsBatch by decide), dif_pos (show (1 : Fin S1000x1024.rank) ∈ dot_S129x1000_S1000x1024_S129x1024_1_0_0_1_n_n.rhsNonContracting by decide)]
  rfl

/-- Entry (`p`, `q`) of table · block, accumulated into zero, is the sum over the 1000 features of
    table[p, f] · block[f, q]. -/
theorem product_at (w : FVec Ideal S129x1000 .bf16) (x : FVec Ideal S1000x1024 .bf16) (p : Fin 129) (q : Fin 1024) :
    matmul dot_S129x1000_S1000x1024_S129x1024_1_0_0_1_n_n none w x (constant (F := Ideal) S129x1024 .f32 0x00000000#32) (ix2 p q)
      = ∑ f : Fin 1000, w (ix2 p f) * x (ix2 f q) := by
  simp only [matmul]
  rw [Ideal.matmul_constant_zero_apply, ← Equiv.sum_comp (ValueIdx.contrEquiv1 dot_S129x1000_S1000x1024_S129x1024_1_0_0_1_n_n 1000 rfl rfl).symm]
  refine Finset.sum_congr rfl fun k _ => ?_
  have hk := ValueIdx.contrEquiv1_symm_val dot_S129x1000_S1000x1024_S129x1024_1_0_0_1_n_n 1000 rfl rfl k
  have el : dot_S129x1000_S1000x1024_S129x1024_1_0_0_1_n_n.lhsIdx (ix2 p q) ((ValueIdx.contrEquiv1 dot_S129x1000_S1000x1024_S129x1024_1_0_0_1_n_n 1000 rfl rfl).symm k) = ix2 p k := funext fun a => Fin.ext (by
    match a with
    | ⟨0, _⟩ => exact lhs_axis0 _ _
    | ⟨1, _⟩ => exact (lhs_axis1 _ _).trans hk)
  have er : dot_S129x1000_S1000x1024_S129x1024_1_0_0_1_n_n.rhsIdx (ix2 p q) ((ValueIdx.contrEquiv1 dot_S129x1000_S1000x1024_S129x1024_1_0_0_1_n_n 1000 rfl rfl).symm k) = ix2 k q := funext fun a => Fin.ext (by
    match a with
    | ⟨0, _⟩ => exact (rhs_axis0 _ _).trans hk
    | ⟨1, _⟩ => exact rhs_axis1 _ _)
  rw [el, er]

/-! ## The layout steps at an entry -/

/-- The first 128 rows of a [129, 1024] array: entry (`j`, `q`) is the array's. -/
theorem rows_at (v : FVec Ideal S129x1024 .f32) (h : S129x1024.Slices ![0, 0] S128x1024) (j : Fin 128) (q : Fin 1024) :
    extractStridedSlice S128x1024 ![0, 0] v h (ix2 j q) = v (ix2 (latRow j) q) :=
  extractStridedSlice_apply _ v h (ix2 j q) (ix2 (latRow j) q) (fun a => by
    match a with
    | ⟨0, _⟩ => show j.val = 0 + j.val; omega
    | ⟨1, _⟩ => show q.val = 0 + q.val; omega)

/-- Row 128 of a [129, 1024] array as a [1, 1024] array: entry (0, `q`) is the array's (128, `q`). -/
theorem lastRow_at (v : FVec Ideal S129x1024 .f32) (h : S129x1024.Slices ![128, 0] S1x1024) (q : Fin 1024) :
    extractStridedSlice S1x1024 ![128, 0] v h (ix2 (0 : Fin 1) q) = v (ix2 biasRow q) :=
  extractStridedSlice_apply _ v h (ix2 (0 : Fin 1) q) (ix2 biasRow q) (fun a => by
    match a with
    | ⟨0, _⟩ => show 128 = 128 + 0; rfl
    | ⟨1, _⟩ => show q.val = 0 + q.val; omega)

/-- The sum of a [128, 1024] array over its rows, at lane `q`. -/
theorem laneSum_at (v : FVec Ideal S128x1024 .f32) (h : S128x1024.Reduces [0] S1024) (hφ : FKind.Formats .f32)
    (hacc : (0x00000000#32 : BitVec 32) = 0x00000000#32) (q : Fin 1024) :
    multiReduction (F := Ideal) .add [0] S1024 v 0x00000000#32 h hφ hacc (ix1 q) = ∑ j : Fin 128, v (ix2 j q) :=
  (Ideal.multiReduction_add_single v 0x00000000#32 h hφ hacc (ix1 q)).trans
    (Finset.sum_congr rfl fun j _ => congrArg v (funext fun a => Fin.ext (by
      match a with
      | ⟨0, _⟩ => rfl
      | ⟨1, _⟩ => rfl)))

/-- A [1024] array seen as [1, 1024]. -/
theorem asRow_at (v : FVec Ideal S1024 .f32) (h : S1024.ShapeCasts S1x1024) (q : Fin 1024) :
    shapeCast S1x1024 v h (ix2 (0 : Fin 1) q) = v (ix1 q) :=
  shapeCast_apply v h (ix2 (0 : Fin 1) q) (ix1 q) (by
    rewrite [Shape.rowMajor_val_one, Shape.rowMajor_val_two]; show q.val = 0 * 1024 + q.val; omega)

/-- A [1, 1024] array seen as [1, 1, 1024]. -/
theorem asBlock_at (v : FVec Ideal S1x1024 .f32) (h : S1x1024.ShapeCasts S1x1x1024) (q : Fin 1024) :
    shapeCast S1x1x1024 v h (ix3 (0 : Fin 1) (0 : Fin 1) q) = v (ix2 (0 : Fin 1) q) :=
  shapeCast_apply v h (ix3 (0 : Fin 1) (0 : Fin 1) q) (ix2 (0 : Fin 1) q) (by
    rewrite [Shape.rowMajor_val_two, Shape.rowMajor_val_three]; show 0 * 1024 + q.val = (0 * 1 + 0) * 1024 + q.val; omega)

/-- The one entry of a [1, 1] array. -/
theorem only_at (v : Vec Ideal S1x1 .f32) (h : ∀ a, (![0, 0] : Fin 2 → Nat) a < S1x1.size a) :
    extractAt ![0, 0] v h = v (ix2 (0 : Fin 1) (0 : Fin 1)) :=
  congrArg v (funext fun a => Fin.ext (by match a with | ⟨0, _⟩ => rfl | ⟨1, _⟩ => rfl))

/-! ## The body's result at a lane -/

/-- The body's stored block at lane `q`: the latent inner product of the two projections, plus the two bias products,
    plus the global bias, all over the blocks' column `q`. -/
theorem body_at (x0 x1 : Vec Ideal S1000x1024 .f32) (x2 x3 : Vec Ideal S129x1000 .bf16) (x4 : Vec Ideal S1x1 .f32) (q : Fin 1024) :
    k0_pay1 (F := Ideal) x0 x1 x2 x3 x4 (ix3 (0 : Fin 1) (0 : Fin 1) q)
      = (((∑ j : Fin 128, (∑ f : Fin 1000, x2 (ix2 (latRow j) f) * x0 (ix2 f q)) * (∑ f : Fin 1000, x3 (ix2 (latRow j) f) * x1 (ix2 f q)))
            + ∑ f : Fin 1000, x2 (ix2 biasRow f) * x0 (ix2 f q))
          + ∑ f : Fin 1000, x3 (ix2 biasRow f) * x1 (ix2 f q))
        + x4 (ix2 (0 : Fin 1) (0 : Fin 1)) := by
  unfold k0_pay1
  simp only [asBlock_at, asRow_at, addf_apply, broadcast_apply, lastRow_at, product_at, shapeCast_self, truncf_apply]
  refine congrArg₂ (· + ·) (congrArg₂ (· + ·) (congrArg₂ (· + ·) ?_ rfl) rfl) (only_at x4 _)
  refine (laneSum_at _ _ _ _ q).trans (Finset.sum_congr rfl fun j _ => ?_)
  simp only [mulf_apply, rows_at, product_at, truncf_apply]

end Cert.KernelIdeal.LaneValue

end
-- ==== Proof.Entry.lean ====
/-
  The arrays the kernel region is launched on, read at an entry.

  Before the region the program transposes the two feature matrices to [1000, 16384] (features down, batch rows across),
  appends to each [1000, 128] weight table its bias column, transposes the [1000, 129] result to [129, 1000] and narrows it
  to the 16-bit format, and views the one-entry global bias as [1, 1].  So, on the extended reals (where narrowing is the
  identity):
    transposed features at (f, n)         = features at (n, f),
    table at (row j < 128, f)             = weight table at (f, j),
    table at (row 128, f)                 = bias column at (f, 0),
    global bias at (0, 0)                 = global bias at 0.
-/
import proofs.«160585_g79645873537454_cont_9to1_m_87_24_alg».proof.Proof.Gen.KernelIdeal.Frame
import proofs.«160585_g79645873537454_cont_9to1_m_87_24_alg».proof.Proof.LaneValue
import Idealize.ShloMosaic.Lib.Pipeline.Value
import Idealize.ShloMosaic.Lib.ValueIdx
import Idealize.ShloMosaic.Lib.StableHlo.Run

noncomputable section

namespace Cert.KernelIdeal.Entry

open Cert.KernelIdeal Cert.KernelIdeal.Gen Cert.KernelIdeal.LaneValue
open Idealize.ShloMosaic Idealize.ShloMosaic.TcCoe Idealize.ShloMosaic.ValueIdx Idealize.SL.Sem Idealize.ShloMosaic.StableHlo

/-! ## The layout operations at an entry -/

/-- A transposed feature matrix at (feature `f`, batch row `n`) is the matrix at (`n`, `f`). -/
theorem featT_at (x : FVec Ideal S16384x1000 .f32) (h : S16384x1000.Transposes [1, 0] S1000x16384) (f : Fin 1000) (n : Fin 16384) :
    transpose S1000x16384 [1, 0] x h (ix2 f n) = x (ix2 n f) :=
  transpose_apply [1, 0] x h (ix2 f n) (ix2 n f) (fun b => match b with | ⟨0, _⟩ => rfl | ⟨1, _⟩ => rfl)

/-- The table built from a weight table `w` and a bias column `b`: at one of its first 128 rows it is `w`'s column. -/
theorem table_lat_at (w : FVec Ideal S1000x128 .f32) (b : FVec Ideal S1000x1 .f32)
    (hc : Shape.Concatenates [S1000x128, S1000x1] S1000x129 1) (ht : S1000x129.Transposes [1, 0] S129x1000)
    (hb : FTy.bits .bf16 < FTy.bits .f32) (j : Fin 128) (f : Fin 1000) :
    (truncf .bf16 (transpose S129x1000 [1, 0] (concatenate S1000x129 1 [⟨S1000x128, w⟩, ⟨S1000x1, b⟩] hc) ht) hb : FVec Ideal S129x1000 .bf16)
        (ix2 (latRow j) f) = w (ix2 f j) := by
  show transpose S129x1000 [1, 0] (concatenate S1000x129 1 [⟨S1000x128, w⟩, ⟨S1000x1, b⟩] hc) ht (ix2 (latRow j) f) = _
  refine (transpose_apply [1, 0] _ ht (ix2 (latRow j) f) (ix2 f (latRow j)) (fun a => match a with | ⟨0, _⟩ => rfl | ⟨1, _⟩ => rfl)).trans ?_
  exact concatenate_pair_apply_left 1 w b hc (ix2 f (latRow j)) rfl (ix2 f j) (fun a => match a with | ⟨0, _⟩ => rfl | ⟨1, _⟩ => rfl)

/-- At its last row it is the bias column. -/
theorem table_bias_at (w : FVec Ideal S1000x128 .f32) (b : FVec Ideal S1000x1 .f32)
    (hc : Shape.Concatenates [S1000x128, S1000x1] S1000x129 1) (ht : S1000x129.Transposes [1, 0] S129x1000)
    (hb : FTy.bits .bf16 < FTy.bits .f32) (f : Fin 1000) :
    (truncf .bf16 (transpose S129x1000 [1, 0] (concatenate S1000x129 1 [⟨S1000x128, w⟩, ⟨S1000x1, b⟩] hc) ht) hb : FVec Ideal S129x1000 .bf16)
        (ix2 biasRow f) = b (ix2 f (0 : Fin 1)) := by
  show transpose S129x1000 [1, 0] (concatenate S1000x129 1 [⟨S1000x128, w⟩, ⟨S1000x1, b⟩] hc) ht (ix2 biasRow f) = _
  refine (transpose_apply [1, 0] _ ht (ix2 biasRow f) (ix2 f biasRow) (fun a => match a with | ⟨0, _⟩ => rfl | ⟨1, _⟩ => rfl)).trans ?_
  exact concatenate_pair_apply_right 1 w b hc (ix2 f biasRow) rfl rfl (ix2 f (0 : Fin 1))
    (fun a => match a with | ⟨0, _⟩ => fun _ => rfl | ⟨1, _⟩ => fun hne => absurd rfl hne) rfl

/-- The one-entry global bias viewed as [1, 1]. -/
theorem glob_at (g : FVec Ideal S1 .f32) (h : S1.ShapeCasts S1x1) :
    shapeCast S1x1 g h (ix2 (0 : Fin 1) (0 : Fin 1)) = g (ix1 (0 : Fin 1)) :=
  shapeCast_apply g h (ix2 (0 : Fin 1) (0 : Fin 1)) (ix1 (0 : Fin 1)) (by
    rewrite [Shape.rowMajor_val_one, Shape.rowMajor_val_two]; rfl)

/-! ## The arrays as the region finds them -/

variable (m : (ℓ : Loc nD τ sig) → Buf (Elt Ideal) ℓ)

/-- The seven argument arrays as launched, at their literal types. -/
abbrev argUF (c : Dev nD) : FVec Ideal S16384x1000 .f32 := m ((c : Thread nD τ).loc main_arg0)
abbrev argIF (c : Dev nD) : FVec Ideal S16384x1000 .f32 := m ((c : Thread nD τ).loc main_arg1)
abbrev argUW (c : Dev nD) : FVec Ideal S1000x128 .f32 := m ((c : Thread nD τ).loc main_arg2)
abbrev argIW (c : Dev nD) : FVec Ideal S1000x128 .f32 := m ((c : Thread nD τ).loc main_arg3)
abbrev argIB (c : Dev nD) : FVec Ideal S1000x1 .f32 := m ((c : Thread nD τ).loc main_arg4)
abbrev argUB (c : Dev nD) : FVec Ideal S1000x1 .f32 := m ((c : Thread nD τ).loc main_arg5)
abbrev argGB (c : Dev nD) : FVec Ideal S1 .f32 := m ((c : Thread nD τ).loc main_arg6)

/-- The five operand arrays as the region finds them, at their literal types. -/
abbrev userT (c : Dev nD) : FVec Ideal S1000x16384 .f32 := V m c main_v0
abbrev itemT (c : Dev nD) : FVec Ideal S1000x16384 .f32 := V m c main_v1
abbrev userTab (c : Dev nD) : FVec Ideal S129x1000 .bf16 := V m c main_v4
abbrev itemTab (c : Dev nD) : FVec Ideal S129x1000 .bf16 := V m c main_v7
abbrev glob (c : Dev nD) : FVec Ideal S1x1 .f32 := V m c main_v8

/-- The first operand: the user features, transposed. -/
theorem userT_eq (c : Dev nD) :
    userT m c = transpose S1000x16384 [1, 0] (argUF m c) transposes_S16384x1000_S1000x16384_1_0 := by
  show StableHlo.after hostOps0 (fun b => m (c, b)) (Proc.devRef .tc main_v0) = _
  after_results <;> rfl

/-- The second operand: the item features, transposed. -/
theorem itemT_eq (c : Dev nD) :
    itemT m c = transpose S1000x16384 [1, 0] (argIF m c) transposes_S16384x1000_S1000x16384_1_0 := by
  show StableHlo.after hostOps0 (fun b => m (c, b)) (Proc.devRef .tc main_v1) = _
  after_results <;> rfl

/-- The third operand: the user table (latent weights beside the user bias column, transposed). -/
theorem userTab_eq (c : Dev nD) :
    userTab m c = truncf (F := Ideal) .bf16 (transpose S129x1000 [1, 0] (concatenate S1000x129 1 [⟨S1000x128, argUW m c⟩, ⟨S1000x1, argUB m c⟩] concatenates_S1000x128_S1000x1_S1000x129_d1) transposes_S1000x129_S129x1000_1_0) bitsLt_bf16_f32 := by
  show StableHlo.after hostOps0 (fun b => m (c, b)) (Proc.devRef .tc main_v4) = _
  after_results <;> rfl

/-- The fourth operand: the item table (latent weights beside the item bias column, transposed). -/
theorem itemTab_eq (c : Dev nD) :
    itemTab m c = truncf (F := Ideal) .bf16 (transpose S129x1000 [1, 0] (concatenate S1000x129 1 [⟨S1000x128, argIW m c⟩, ⟨S1000x1, argIB m c⟩] concatenates_S1000x128_S1000x1_S1000x129_d1) transposes_S1000x129_S129x1000_1_0) bitsLt_bf16_f32 := by
  show StableHlo.after hostOps0 (fun b => m (c, b)) (Proc.devRef .tc main_v7) = _
  after_results <;> rfl

/-- The fifth operand: the global bias as [1, 1]. -/
theorem glob_eq (c : Dev nD) :
    glob m c = shapeCast S1x1 (argGB m c) shapeCasts_S1_S1x1 := by
  show StableHlo.after hostOps0 (fun b => m (c, b)) (Proc.devRef .tc main_v8) = _
  after_results <;> rfl

/-! ## The same, entry by entry -/

theorem userT_at (c : Dev nD) (f : Fin 1000) (n : Fin 16384) : userT m c (ix2 f n) = argUF m c (ix2 n f) := by
  rw [userT_eq]; exact featT_at _ _ f n
theorem itemT_at (c : Dev nD) (f : Fin 1000) (n : Fin 16384) : itemT m c (ix2 f n) = argIF m c (ix2 n f) := by
  rw [itemT_eq]; exact featT_at _ _ f n
theorem userTab_lat_at (c : Dev nD) (j : Fin 128) (f : Fin 1000) : userTab m c (ix2 (latRow j) f) = argUW m c (ix2 f j) := by
  rw [userTab_eq]; exact table_lat_at _ _ _ _ _ j f
theorem userTab_bias_at (c : Dev nD) (f : Fin 1000) : userTab m c (ix2 biasRow f) = argUB m c (ix2 f (0 : Fin 1)) := by
  rw [userTab_eq]; exact table_bias_at _ _ _ _ _ f
theorem itemTab_lat_at (c : Dev nD) (j : Fin 128) (f : Fin 1000) : itemTab m c (ix2 (latRow j) f) = argIW m c (ix2 f j) := by
  rw [itemTab_eq]; exact table_lat_at _ _ _ _ _ j f
theorem itemTab_bias_at (c : Dev nD) (f : Fin 1000) : itemTab m c (ix2 biasRow f) = argIB m c (ix2 f (0 : Fin 1)) := by
  rw [itemTab_eq]; exact table_bias_at _ _ _ _ _ f
theorem glob_one (c : Dev nD) : glob m c (ix2 (0 : Fin 1) (0 : Fin 1)) = argGB m c (ix1 (0 : Fin 1)) := by
  rw [glob_eq]; exact glob_at _ _

end Cert.KernelIdeal.Entry

end
-- ==== Proof.Blocks.lean ====
/-
  From what each grid point writes back to the whole output array.

  Grid point `t` (of 16) works on batch rows `1024·t … 1024·t + 1023`: it fetches columns `1024·t + q` of the two transposed
  feature matrices and the two whole tables, and writes block `t` of the [16, 1, 1024] output.  With the operands read as in
  the entry module, lane `q` of what the body stores is the score of batch row `1024·t + q` in its transposed arrangement
  (`Cert.HybridScore.scoreT`).  So every point writes back the restriction of ONE function of the argument arrays,
      outArr (t, 0, q) = scoreT … (1024·t + q),
  and since the 16 blocks tile the output array, the array ends holding `outArr`.
-/
import proofs.«160585_g79645873537454_cont_9to1_m_87_24_alg».proof.Proof.Gen.KernelIdeal.Frame
import proofs.«160585_g79645873537454_cont_9to1_m_87_24_alg».proof.Proof.LaneValue
import proofs.«160585_g79645873537454_cont_9to1_m_87_24_alg».proof.Proof.Entry
import proofs.«160585_g79645873537454_cont_9to1_m_87_24_alg».proof.Proof.Spec
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.KernelIdeal.LaneValue Cert.KernelIdeal.Entry Cert.HybridScore
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

theorem zero2 : (![0, 0] : Fin 2 → Nat) = fun _ => 0 := funext fun a => by fin_cases a <;> rfl
theorem zero3 : (![0, 0, 0] : Fin 3 → Nat) = fun _ => 0 := funext fun a => by fin_cases a <;> rfl

/-- The printed index maps at a grid point: the feature blocks move along the batch axis with the point, the tables and the
    global bias stay at block (0, 0), and the output block is the point's own. -/
theorem blockIdx : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

theorem point_lt (t : Fin cfg0.N) : t.val < 16 := lt_of_lt_of_eq t.isLt N_0

/-- The batch row lane `q` of grid point `t` works on. -/
abbrev rowOf (t : Fin cfg0.N) (q : Fin 1024) : Fin 16384 :=
  ⟨t.val * 1024 + q.val, by have := point_lt t; have := q.isLt; omega⟩

/-- The batch row an entry of the [16, 1, 1024] output array belongs to. -/
abbrev rowAt (i : S16x1x1024.Idx) : Fin 16384 :=
  ⟨(i 0).val * 1024 + (i 2).val, by
    have h0 : (i 0).val < 16 := (i 0).isLt
    have h2 : (i 2).val < 1024 := (i 2).isLt
    omega⟩

/-- What the output array ends holding: at each entry the score of its batch row, in the transposed arrangement. -/
def outArr (c : Dev nD) : S16x1x1024.Idx → Elt Ideal .f32 := fun i =>
  scoreT (argUF m c) (argIF m c) (argUW m c) (argIW m c) (argIB m c) (argUB m c) (argGB m c) (rowAt i)

/-! ## The input blocks at an entry -/

/-- The user-feature block at (feature `f`, lane `q`) is the user features at (row of the lane, `f`). -/
theorem ublk_at (c : Dev nD) (t : Fin cfg0.N) (f : Fin 1000) (q : Fin 1024) :
    (iblk m c 0 t : Vec Ideal S1000x1024 .f32) (ix2 f q) = argUF m c (ix2 (rowOf t q) f) := by
  show userT m c (((cfg0.win 0).blk t).view.emb (ix2 f q)) = _
  have he : ((cfg0.win 0).blk t).view.emb (ix2 f q) = ix2 f (rowOf t q) := by
    obtain ⟨e0, e1, -⟩ := blockIdx t
    funext a; apply Fin.ext
    match a with
    | ⟨0, _⟩ => show win0_0.index t (0 : Fin 2) * 1000 + 1 * f.val = f.val; omega
    | ⟨1, _⟩ => show win0_0.index t (1 : Fin 2) * 1024 + 1 * q.val = t.val * 1024 + q.val; omega
  rw [he]; exact userT_at m c f (rowOf t q)

/-- The item-feature block likewise. -/
theorem vblk_at (c : Dev nD) (t : Fin cfg0.N) (f : Fin 1000) (q : Fin 1024) :
    (iblk m c 1 t : Vec Ideal S1000x1024 .f32) (ix2 f q) = argIF m c (ix2 (rowOf t q) f) := by
  show itemT m c (((cfg0.win 1).blk t).view.emb (ix2 f q)) = _
  have he : ((cfg0.win 1).blk t).view.emb (ix2 f q) = ix2 f (rowOf t q) := by
    obtain ⟨-, -, e0, e1, -⟩ := blockIdx t
    funext a; apply Fin.ext
    match a with
    | ⟨0, _⟩ => show win0_1.index t (0 : Fin 2) * 1000 + 1 * f.val = f.val; omega
    | ⟨1, _⟩ => show win0_1.index t (1 : Fin 2) * 1024 + 1 * q.val = t.val * 1024 + q.val; omega
  rw [he]; exact itemT_at m c f (rowOf t q)

/-- The user table's block is the whole table. -/
theorem utab_emb (t : Fin cfg0.N) (p : Fin 129) (f : Fin 1000) : ((cfg0.win 2).blk t).view.emb (ix2 p f) = ix2 p f := by
  obtain ⟨-, -, -, -, e0, e1, -⟩ := blockIdx t
  funext a; apply Fin.ext
  match a with
  | ⟨0, _⟩ => show win0_2.index t (0 : Fin 2) * 129 + 1 * p.val = p.val; omega
  | ⟨1, _⟩ => show win0_2.index t (1 : Fin 2) * 1000 + 1 * f.val = f.val; omega
theorem utab_lat_at (c : Dev nD) (t : Fin cfg0.N) (j : Fin 128) (f : Fin 1000) :
    (iblk m c 2 t : Vec Ideal S129x1000 .bf16) (ix2 (latRow j) f) = argUW m c (ix2 f j) := by
  show userTab m c (((cfg0.win 2).blk t).view.emb (ix2 (latRow j) f)) = _
  rw [utab_emb]; exact userTab_lat_at m c j f
theorem utab_bias_at (c : Dev nD) (t : Fin cfg0.N) (f : Fin 1000) :
    (iblk m c 2 t : Vec Ideal S129x1000 .bf16) (ix2 biasRow f) = argUB m c (ix2 f (0 : Fin 1)) := by
  show userTab m c (((cfg0.win 2).blk t).view.emb (ix2 biasRow f)) = _
  rw [utab_emb]; exact userTab_bias_at m c f

/-- The item table's block is the whole table. -/
theorem itab_emb (t : Fin cfg0.N) (p : Fin 129) (f : Fin 1000) : ((cfg0.win 3).blk t).view.emb (ix2 p f) = ix2 p f := by
  obtain ⟨-, -, -, -, -, -, e0, e1, -⟩ := blockIdx t
  funext a; apply Fin.ext
  match a with
  | ⟨0, _⟩ => show win0_3.index t (0 : Fin 2) * 129 + 1 * p.val = p.val; omega
  | ⟨1, _⟩ => show win0_3.index t (1 : Fin 2) * 1000 + 1 * f.val = f.val; omega
theorem itab_lat_at (c : Dev nD) (t : Fin cfg0.N) (j : Fin 128) (f : Fin 1000) :
    (iblk m c 3 t : Vec Ideal S129x1000 .bf16) (ix2 (latRow j) f) = argIW m c (ix2 f j) := by
  show itemTab m c (((cfg0.win 3).blk t).view.emb (ix2 (latRow j) f)) = _
  rw [itab_emb]; exact itemTab_lat_at m c j f
theorem itab_bias_at (c : Dev nD) (t : Fin cfg0.N) (f : Fin 1000) :
    (iblk m c 3 t : Vec Ideal S129x1000 .bf16) (ix2 biasRow f) = argIB m c (ix2 f (0 : Fin 1)) := by
  show itemTab m c (((cfg0.win 3).blk t).view.emb (ix2 biasRow f)) = _
  rw [itab_emb]; exact itemTab_bias_at m c f

/-- The global bias's block is its one entry. -/
theorem gblk_at (c : Dev nD) (t : Fin cfg0.N) :
    (iblk m c 4 t : Vec Ideal S1x1 .f32) (ix2 (0 : Fin 1) (0 : Fin 1)) = argGB m c (ix1 (0 : Fin 1)) := by
  show glob m c (((cfg0.win 4).blk t).view.emb (ix2 (0 : Fin 1) (0 : Fin 1))) = _
  have he : ((cfg0.win 4).blk t).view.emb (ix2 (0 : Fin 1) (0 : Fin 1)) = ix2 (0 : Fin 1) (0 : Fin 1) := by
    obtain ⟨-, -, -, -, -, -, -, -, e0, e1, -⟩ := blockIdx t
    funext a; apply Fin.ext
    match a with
    | ⟨0, _⟩ => show win0_4.index t (0 : Fin 2) * 1 + 1 * 0 = 0; omega
    | ⟨1, _⟩ => show win0_4.index t (1 : Fin 2) * 1 + 1 * 0 = 0; omega
  rw [he]; exact glob_one m c

/-! ## What a point writes back -/

/-- Point `t` writes back block `t` of `outArr`. -/
theorem flushed_eq (c : Dev nD) (t : Fin cfg0.N) :
    (dats m 0 c).flushed 5 t = ((cfg0.win 5).blk t).view.read (Elt Ideal) (outArr m c) := by
  show (cfg0.win 5).cut (grid0.coords t) ((dats m 0 c).after 5 t) = _
  rw [after0_5]
  unfold out0_5
  rw [View.canon_unit_zero zero3]
  simp only [View.ld_unit_zero (S := S1000x1024) zero2, View.ld_unit_zero (S := S129x1000) zero2, View.ld_unit_zero (S := S1x1) zero2]
  refine funext fun (y : S1x1x1024.Idx) => ?_
  obtain ⟨a, b, q, rfl⟩ : ∃ (a : Fin 1) (b : Fin 1) (q : Fin 1024), y = ix3 a b q := ⟨y 0, y 1, y 2, eq_ix3 y⟩
  obtain rfl : a = 0 := Subsingleton.elim _ _
  obtain rfl : b = 0 := Subsingleton.elim _ _
  show k0_pay1 (F := Ideal) (iblk m c 0 t) (iblk m c 1 t) (iblk m c 2 t) (iblk m c 3 t) (iblk m c 4 t) (ix3 (0 : Fin 1) (0 : Fin 1) q)
    = outArr m c (((cfg0.win 5).blk t).view.emb (ix3 (0 : Fin 1) (0 : Fin 1) q))
  refine (body_at _ _ _ _ _ q).trans ?_
  have he : ((cfg0.win 5).blk t).view.emb (ix3 (0 : Fin 1) (0 : Fin 1) q) = ix3 (⟨t.val, point_lt t⟩ : Fin 16) (0 : Fin 1) q := by
    obtain ⟨-, -, -, -, -, -, -, -, -, -, e0, e1, e2⟩ := blockIdx t
    funext a; apply Fin.ext
    match a with
    | ⟨0, _⟩ => show win0_5.index t (0 : Fin 3) * 1 + 1 * 0 = t.val; omega
    | ⟨1, _⟩ => show win0_5.index t (1 : Fin 3) * 1 + 1 * 0 = 0; omega
    | ⟨2, _⟩ => show win0_5.index t (2 : Fin 3) * 1024 + 1 * q.val = q.val; omega
  rw [he]
  unfold outArr scoreT
  simp only [ublk_at m c t, vblk_at m c t, utab_lat_at m c t, utab_bias_at m c t, itab_lat_at m c t, itab_bias_at m c t, gblk_at m c t]

/-! ## The blocks tile the output array -/

/-- An entry of the output array is in point `t`'s block iff each coordinate is in the block's range on its axis. -/
theorem mem_blk (t : Fin cfg0.N) (i : S16x1x1024.Idx) :
    i ∈ ((cfg0.win 5).blk t).view.set ↔ ∀ a : Fin 3, win0_5.index t a * S1x1x1024.size a ≤ (i a).val ∧ (i a).val < win0_5.index t a * S1x1x1024.size a + S1x1x1024.size a := by
  show i ∈ ((View.whole main_v9).slice (win0_5.rect t)).set ↔ _
  rw [View.set_slice_whole, Rect.mem_set_unit]
  exact Iff.rfl

/-- Every entry is in the block of the point its first coordinate names. -/
theorem cover (i : S16x1x1024.Idx) : ∃ t : Fin cfg0.N, (cfg0.win 5).flush t = true ∧ i ∈ ((cfg0.win 5).blk t).view.set := by
  have h0 : (i 0).val < 16 := (i 0).isLt
  have h1 : (i 1).val < 1 := (i 1).isLt
  have h2 : (i 2).val < 1024 := (i 2).isLt
  obtain ⟨t, ht⟩ : ∃ t : Fin cfg0.N, t.val = (i 0).val := ⟨⟨(i 0).val, lt_of_lt_of_eq h0 N_0.symm⟩, rfl⟩
  refine ⟨t, flush0_5 t, ?_⟩
  rw [mem_blk]
  obtain ⟨-, -, -, -, -, -, -, -, -, -, e0, e1, e2⟩ := blockIdx t
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1 ≤ (i 1).val ∧ (i 1).val < win0_5.index t (1 : Fin 3) * 1 + 1; omega
  | ⟨2, _⟩ => show win0_5.index t (2 : Fin 3) * 1024 ≤ (i 2).val ∧ (i 2).val < win0_5.index t (2 : Fin 3) * 1024 + 1024; omega

/-- The output array after the region. -/
theorem final (c : Dev nD) : (dats m 0 c).arrAt 5 cfg0.N = outArr m c :=
  (dats m 0 c).arrAt_eq_of_cover 5 (outArr m c) (fun t _ => flushed_eq m c t) (cover)

end Cert.KernelIdeal.Blocks

end
-- ==== Proof.ScoreRun.lean ====
/-
  The kernel program's run, read: its result buffer ends holding the score of every batch row.

  After the region the program views the [16, 1, 1024] output array as [16384]: entry `n` of the result is the output
  array's entry (n / 1024, 0, n % 1024), whose batch row is `1024·(n / 1024) + n % 1024 = n`.  The output array holds
  the score in its transposed arrangement, which is the score (`Cert.HybridScore.scoreT_eq`).  The argument arrays end as
  launched: no operation writes them.
-/
import proofs.«160585_g79645873537454_cont_9to1_m_87_24_alg».proof.Proof.Blocks
import Idealize.ShloMosaic.Lib.StableHlo.Run

set_option maxRecDepth 16384

noncomputable section

namespace Cert.KernelIdeal.ScoreRun

open Cert.KernelIdeal Cert.KernelIdeal.Gen Cert.KernelIdeal.Entry Cert.KernelIdeal.Blocks Cert.HybridScore
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- A [16, 1, 1024] array viewed as [16384], at entry `i`: the array at (i / 1024, 0, i % 1024). -/
theorem flat_at (G : S16x1x1024.Idx → Elt Ideal .f32) (h : S16x1x1024.ShapeCasts S16384) (i : S16384.Idx) :
    shapeCast S16384 G h i
      = G (ix3 (⟨(i 0).val / 1024, by have h0 : (i 0).val < 16384 := (i 0).isLt; omega⟩ : Fin 16) (0 : Fin 1)
            (⟨(i 0).val % 1024, by omega⟩ : Fin 1024)) :=
  shapeCast_apply G h i _ (by
    rewrite [Shape.rowMajor_val_three, Shape.rowMajor_val_one]
    show ((i 0).val / 1024 * 1 + 0) * 1024 + (i 0).val % 1024 = (i 0).val
    omega)

/-- The result buffer after the lines that follow the region: the score, row by row. -/
theorem result_eq (c : Dev nD) :
    (Pipeline.afterTail₀ cfgs (dats m) 0 (V0 m) [hostOps1] c main_v10 : S16384.Idx → Elt Ideal .f32)
      = fun i => score (argUF m c) (argIF m c) (argUW m c) (argIW m c) (argIB m c) (argUB m c) (argGB m c) (i 0) := by
  have hw : Pipeline.withArrays (cfgs 0).spec c (V0 m c) (fun w => (dats m 0 c).arrAt w (cfgs 0).N) (Proc.devRef .tc main_v9)
      = outArr m c :=
    (Pipeline.withArrays_arr spec0 launch0.win.arr_inj c _ _ 5).trans (final m c)
  unfold Pipeline.afterTail₀
  show StableHlo.after hostOps1 _ (Proc.devRef .tc main_v10) = _
  after_results
  rw [hw]
  funext i
  show shapeCast S16384 (outArr m c) shapeCasts_S16x1x1024_S16384 i = _
  rw [flat_at]
  unfold outArr
  rw [scoreT_eq]
  refine congrArg (score (argUF m c) (argIF m c) (argUW m c) (argIW m c) (argIB m c) (argUB m c) (argGB m c)) (Fin.ext ?_)
  show (i 0).val / 1024 * 1024 + (i 0).val % 1024 = (i 0).val
  omega

/-- Every weakly fair execution of the kernel program terminates with the result buffer at the score of each batch row
    and the seven arguments as launched. -/
theorem run : θ_run defs (onTc (τ := τ) (main (F := Ideal))) ⟨m, fun _ => 0, ρ⟩ (fun r => ∀ c : Dev nD,
      r.2.mem ((c.tc : Thread nD τ).loc main_v10)
        = (fun i => score (argUF m c) (argIF m c) (argUW m c) (argIW m c) (argIB m c) (argUB m c) (argGB m c) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v10 (Pipeline.mem_restRefs_of main_v10 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.ScoreRun

end
-- ==== Proof.lean ====
/-
  A fused scoring kernel against its plain reference: for every batch row `n` of 16384,

      score n = Σ_{j<128} (Σ_f UF[n,f]·UW[f,j]) · (Σ_f IF[n,f]·IW[f,j])  +  Σ_f IF[n,f]·ib[f]  +  Σ_f UF[n,f]·ub[f]  +  gb

  (f over 1000 features), read on the extended reals.

  The reference computes the four matrix products separately and adds the terms in the order written.  The kernel
  transposes the feature matrices, appends each bias vector to its weight table as a 129th column, transposes the
  tables, and in one pass over 16 blocks of 1024 batch rows forms table · block for both sides; rows 0–127 of the two
  products are multiplied and summed over the rows, row 128 of each is the bias product.  Per row it therefore adds the
  same four terms with each product's factors exchanged (table entry on the left) and the user bias before the item
  bias.  Multiplication and addition on the extended reals are commutative and addition is associative, so the two
  results are equal at every input; finiteness of the inputs is never used.  The narrowing of the kernel's operands to
  a 16-bit format is the identity on the extended reals, and a matrix product into a zero accumulator is the plain sum.

  The modules: Spec (the score and its transposed arrangement), RefValue (the reference's result is the score),
  LaneValue (one grid point's body at a lane), Entry (the operand arrays the region is launched on), Blocks (the blocks
  written back tile the output array), ScoreRun (the kernel program's run with its result named).  Both kernel frames
  are the generated ones; the reference's frame is its generated run with the result dropped.  The idealization rewrote
  no operation, so there is nothing to preserve.
-/
import proofs.«160585_g79645873537454_cont_9to1_m_87_24_alg».proof.Defs
import proofs.«160585_g79645873537454_cont_9to1_m_87_24_alg».proof.Proof.Gen.Kernel
import proofs.«160585_g79645873537454_cont_9to1_m_87_24_alg».proof.Proof.Gen.Kernel.Skeleton
import proofs.«160585_g79645873537454_cont_9to1_m_87_24_alg».proof.Proof.Gen.Kernel.Launch
import proofs.«160585_g79645873537454_cont_9to1_m_87_24_alg».proof.Proof.Gen.Kernel.Points
import proofs.«160585_g79645873537454_cont_9to1_m_87_24_alg».proof.Proof.Gen.Kernel.Frame
import proofs.«160585_g79645873537454_cont_9to1_m_87_24_alg».proof.Proof.Gen.KernelIdeal
import proofs.«160585_g79645873537454_cont_9to1_m_87_24_alg».proof.Proof.Gen.KernelIdeal.Skeleton
import proofs.«160585_g79645873537454_cont_9to1_m_87_24_alg».proof.Proof.Gen.KernelIdeal.Launch
import proofs.«160585_g79645873537454_cont_9to1_m_87_24_alg».proof.Proof.Gen.KernelIdeal.Points
import proofs.«160585_g79645873537454_cont_9to1_m_87_24_alg».proof.Proof.Gen.KernelIdeal.Frame
import proofs.«160585_g79645873537454_cont_9to1_m_87_24_alg».proof.Proof.Gen.ReferenceIdeal
import proofs.«160585_g79645873537454_cont_9to1_m_87_24_alg».proof.Proof.Gen.ReferenceIdeal.Run
import proofs.«160585_g79645873537454_cont_9to1_m_87_24_alg».proof.Proof.Gen.ReferenceIdeal.Read
import proofs.«160585_g79645873537454_cont_9to1_m_87_24_alg».proof.Proof.Gen.Pre_finite_inputs
import proofs.«160585_g79645873537454_cont_9to1_m_87_24_alg».proof.Proof.Spec
import proofs.«160585_g79645873537454_cont_9to1_m_87_24_alg».proof.Proof.RefValue
import proofs.«160585_g79645873537454_cont_9to1_m_87_24_alg».proof.Proof.ScoreRun
import Idealize.ShloMosaic.Adequacy
import Idealize.ShloMosaic.Init

noncomputable section

namespace Cert.Proof

open Idealize.ShloMosaic Idealize.ShloMosaic.TcCoe Idealize.SL.Sem Cert.HybridScore

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: it runs, and its run's post holds the unchanged arguments. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the score of every batch row in their result buffers: the kernel by its run read through
    the blocks, the reference by its run read operation by operation, from memories that agree on the arguments. -/
theorem algebraic : Cert.algebraic_KernelIdeal_ReferenceIdeal := by
  intro m ρ m' ρ' _ hagree
  refine ⟨_, Cert.KernelIdeal.ScoreRun.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v11_eq, Cert.ReferenceIdeal.RefValue.val_eq, h0, h1, h2, h3, h4, h5, h6]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
